-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S10000x64 : Shape := ⟨2, ![10000, 64]⟩

abbrev nBuf : Space → Nat
  | .hbm => 59
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1250000, .i32⟩
  | .hbm, ⟨27, _⟩ => ⟨S1250000, .i1⟩
  | .hbm, ⟨28, _⟩ => ⟨S_, .i32⟩
  | .hbm, ⟨29, _⟩ => ⟨S1250000, .i32⟩
  | .hbm, ⟨30, _⟩ => ⟨S1250000, .i32⟩
  | .hbm, ⟨31, _⟩ => ⟨S1250000, .i32⟩
  | .hbm, ⟨32, _⟩ => ⟨S1250000x1, .i32⟩
  | .hbm, ⟨33, _⟩ => ⟨S1250000x64, .f32⟩
  | .hbm, ⟨34, _⟩ => ⟨S_, .f32⟩
  | .hbm, ⟨35, _⟩ => ⟨S100000x64, .f32⟩
  | .hbm, ⟨36, _⟩ => ⟨S1250000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1250000, .i32⟩
  | .hbm, ⟨44, _⟩ => ⟨S1250000, .i1⟩
  | .hbm, ⟨45, _⟩ => ⟨S_, .i32⟩
  | .hbm, ⟨46, _⟩ => ⟨S1250000, .i32⟩
  | .hbm, ⟨47, _⟩ => ⟨S1250000, .i32⟩
  | .hbm, ⟨48, _⟩ => ⟨S1250000, .i32⟩
  | .hbm, ⟨49, _⟩ => ⟨S1250000x1, .i32⟩
  | .hbm, ⟨50, _⟩ => ⟨S1250000x64, .f32⟩
  | .hbm, ⟨51, _⟩ => ⟨S_, .f32⟩
  | .hbm, ⟨52, _⟩ => ⟨S100000x64, .f32⟩
  | .hbm, ⟨53, _⟩ => ⟨S1250000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1250000, .i32⟩
  | .hbm, ⟨50, _⟩ => ⟨S1250000, .i1⟩
  | .hbm, ⟨51, _⟩ => ⟨S_, .i32⟩
  | .hbm, ⟨52, _⟩ => ⟨S1250000, .i32⟩
  | .hbm, ⟨53, _⟩ => ⟨S1250000, .i32⟩
  | .hbm, ⟨54, _⟩ => ⟨S1250000, .i32⟩
  | .hbm, ⟨55, _⟩ => ⟨S1250000x1, .i32⟩
  | .hbm, ⟨56, _⟩ => ⟨S1250000x64, .f32⟩
  | .hbm, ⟨57, _⟩ => ⟨S_, .f32⟩
  | .hbm, ⟨58, _⟩ => ⟨S100000x64, .f32⟩
  | .hbm, ⟨59, _⟩ => ⟨S1250000x1, .i32⟩
  | .hbm, ⟨60, _⟩ => ⟨S100000x64, .f32⟩
  | .hbm, ⟨61, _⟩ => ⟨S_, .f32⟩
  | .hbm, ⟨62, _⟩ => ⟨S1250000, .f32⟩
  | .hbm, ⟨63, _⟩ => ⟨S_, .f32⟩
  | .hbm, ⟨64, _⟩ => ⟨S100000, .f32⟩
  | .hbm, ⟨65, _⟩ => ⟨S1250000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  Two stacked mean-aggregating graph convolutions over 100000 nodes with 64 features, as functions on the
  extended reals, index by index.

  One layer sends a node table \`x\` to
      out[n, o] = Σₖ mean[n, k] · W_l[o, k]  +  Σₖ x[n, k] · W_r[o, k]  +  b[o],
  where \`mean[n, ·]\` is the sum of the rows of \`x\` over the edges that end in \`n\`, divided by the number of
  such edges (at least one). The aggregation along the edges (\`A\`: gather the source rows, add them into the
  destination rows) and the edge counts (\`cm\`, already clipped below by one) enter as parameters: both programs
  apply the same two host operations there, and nothing in the argument opens them.

  The only algebra between the two programs: dividing by a count is multiplying by its reciprocal
  (\`timesRecip_eq_meanBy\`: the count is at least one, so not zero, and off zero the quotient IS the product with
  the inverse on every extended real), and the three summands of a layer may be added in either order
  (\`combine_eq_biasMiddle\`).
-/
import Idealize.ShloMosaic.PureOps.Ideal
import Idealize.ShloMosaic.Lib.ValueIdx

noncomputable section

namespace SageSpec

open Idealize.ShloMosaic Idealize.ShloMosaic.ValueIdx

/-- The node table's shape: 100000 nodes, 64 features. -/
abbrev Nd : Shape := ⟨2, ![100000, 64]⟩
/-- A weight matrix's shape: 64 outputs by 64 inputs. -/
abbrev Wt : Shape := ⟨2, ![64, 64]⟩

/-- Entry (n, k) of a node table. -/
abbrev nd (n : Fin 100000) (k : Fin 64) : Nd.Idx := ix2 n k
/-- Entry (o, k) of a weight matrix. -/
abbrev wt (o : Fin 64) (k : Fin 64) : Wt.Idx := ix2 o k

/-- One layer's per-node combine: the neighbours' mean through \`W_l\`, the node's own features through \`W_r\`,
    plus the bias. -/
def combine (mean x : Nd.Idx → EReal) (wl wr : Wt.Idx → EReal) (b : Fin 64 → EReal) : Nd.Idx → EReal :=
  fun i => (∑ k : Fin 64, mean (nd (i 0) k) * wl (wt (i 1) k)) + (∑ k : Fin 64, x (nd (i 0) k) * wr (wt (i 1) k)) + b (i 1)

/-- The same three summands with the bias added second. -/
def combineBiasMiddle (mean x : Nd.Idx → EReal) (wl wr : Wt.Idx → EReal) (b : Fin 64 → EReal) : Nd.Idx → EReal :=
  fun i => (∑ k : Fin 64, mean (nd (i 0) k) * wl (wt (i 1) k)) + b (i 1) + (∑ k : Fin 64, x (nd (i 0) k) * wr (wt (i 1) k))

theorem combine_eq_biasMiddle (mean x : Nd.Idx → EReal) (wl wr : Wt.Idx → EReal) (b : Fin 64 → EReal) :
    combineBiasMiddle mean x wl wr b = combine mean x wl wr b :=
  funext fun _ => add_right_comm _ _ _

/-- The positive part. -/
def relu (v : Nd.Idx → EReal) : Nd.Idx → EReal := fun i => max (v i) 0

/-- Row \`n\` of the aggregate divided by node \`n\`'s count. -/
def meanBy (agg : Nd.Idx → EReal) (cm : Fin 100000 → EReal) : Nd.Idx → EReal :=
  fun i => Ideal.div (agg i) (cm (i 0))

/-- Row \`n\` of the aggregate times the reciprocal of node \`n\`'s count. -/
def timesRecip (agg : Nd.Idx → EReal) (cm : Fin 100000 → EReal) : Nd.Idx → EReal :=
  fun i => agg i * Ideal.div 1 (cm (i 0))

/-- Off zero a quotient is the product with the inverse, and the reciprocal is that inverse: so the product with
    the reciprocal is the quotient, at the infinities too. -/
theorem timesRecip_eq_meanBy (agg : Nd.Idx → EReal) (cm : Fin 100000 → EReal) (h : ∀ n, cm n ≠ 0) :
    timesRecip agg cm = meanBy agg cm := by
  funext i
  unfold timesRecip meanBy Ideal.div
  rw [if_neg (h (i 0)), if_neg (h (i 0)), one_mul]

/-- A count clipped below by one is not zero. -/
theorem max_one_ne_zero (x : EReal) : max x 1 ≠ 0 :=
  (lt_of_lt_of_le zero_lt_one (le_max_right x 1)).ne'

/-- The two layers: the first followed by the positive part, the second on its result, both aggregating along
    the same edges and dividing by the same counts. -/
def twoLayers (A : (Nd.Idx → EReal) → Nd.Idx → EReal) (cm : Fin 100000 → EReal) (x : Nd.Idx → EReal)
    (w1l w1r : Wt.Idx → EReal) (b1 : Fin 64 → EReal) (w2l w2r : Wt.Idx → EReal) (b2 : Fin 64 → EReal) : Nd.Idx → EReal :=
  combine (meanBy (A (relu (combine (meanBy (A x) cm) x w1l w1r b1))) cm) (relu (combine (meanBy (A x) cm) x w1l w1r b1)) w2l w2r b2

end SageSpec

end
-- ==== Proof.Payload.lean ====
import proofs.«172990_j6897717477582_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-! ## The contraction's operand indices, axis by axis

The product contracts the left operand's axis 1 with the right operand's axis 0: at result index `i` and
contraction index `c`, the left operand is read at `(i 0, c)` and the right one at `(c, i 1)`. -/

theorem lhs_dot_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_dot_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
theorem rhs_dot_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
theorem rhs_dot_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-! ## One lemma per operation that is not pointwise -/

/-- The matrix product accumulated into the zero block is, at `(p, q)`, the sum over the contracted axis of
    `l[p, k] * r[k, q]`. -/
theorem matmul_zero_apply (l : FVec Ideal S10000x64 .bf16) (r : FVec Ideal S64x64 .bf16) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_dot_0 _ _
    | ⟨1, _⟩ => exact (lhs_dot_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_dot_0 _ _).trans hk
    | ⟨1, _⟩ => exact rhs_dot_1 _ _)
  rw [el, er]

/-- With the right operand a transposed weight `w`, the product reads `w` along its rows:
    entry `(p, q)` is `Σₖ l[p, k] * w[q, k]`. -/
theorem matmul_transpose_apply (l : FVec Ideal S10000x64 .bf16) (w : FVec Ideal S64x64 .bf16) (p : Fin 10000) (q : Fin 64) :
    matmul dot_S10000x64_S64x64_S10000x64_1_0_0_1_n_n none l (transpose S64x64 [1, 0] w transposes_S64x64_p1_0_S64x64)
        (constant (F := Ideal) S10000x64 .f32 0x00000000#32) (ix2 p q)
      = ∑ k : Fin 64, l (ix2 p k) * w (ix2 q k) := by
  rw [matmul_zero_apply]
  refine Finset.sum_congr rfl fun k _ => ?_
  rw [transpose_ix2_apply]

/-- The bias row repeated down the rows reads, at `(p, q)`, the row's entry `q`. -/
theorem bias_apply (b : FVec Ideal S1x64 .f32) (p : Fin 10000) (q : Fin 64) :
    broadcastTo S10000x64 (shapeCast S1x64 b shapeCasts_S1x64_S1x64) broadcasts_S1x64_S10000x64 (ix2 p q)
      = b (ix2 0 q) := by
  rw [shapeCast_self, broadcastTo_1b_ab_apply]

/-- The zero word is the real number zero. -/
theorem zero_word : (FloatOps.ofBits (F := Ideal) .f32 0x00000000#32) = 0 := by
  rw [Ideal.ofBits_def, Ideal.ofBits_zero_f32]

/-! ## The two payloads at an index -/

/-- The common part of both bodies: the two products plus the bias row. -/
theorem combine_apply (a x : FVec Ideal S10000x64 .f32) (wl wr : FVec Ideal S64x64 .f32) (bb : FVec Ideal S1x64 .f32)
    (p : Fin 10000) (q : Fin 64) :
    addf
        (addf
          (matmul dot_S10000x64_S64x64_S10000x64_1_0_0_1_n_n none (truncf .bf16 a bitsLt_bf16_f32)
            (transpose S64x64 [1, 0] (truncf .bf16 wl bitsLt_bf16_f32) transposes_S64x64_p1_0_S64x64)
            (constant (F := Ideal) S10000x64 .f32 0x00000000#32))
          (matmul dot_S10000x64_S64x64_S10000x64_1_0_0_1_n_n none (truncf .bf16 x bitsLt_bf16_f32)
            (transpose S64x64 [1, 0] (truncf .bf16 wr bitsLt_bf16_f32) transposes_S64x64_p1_0_S64x64)
            (constant (F := Ideal) S10000x64 .f32 0x00000000#32)))
        (broadcastTo S10000x64 (shapeCast S1x64 bb shapeCasts_S1x64_S1x64) broadcasts_S1x64_S10000x64) (ix2 p q)
      = (∑ k : Fin 64, a (ix2 p k) * wl (ix2 q k)) + (∑ k : Fin 64, x (ix2 p k) * wr (ix2 q k)) + bb (ix2 0 q) := by
  rw [addf_apply, addf_apply, matmul_transpose_apply, matmul_transpose_apply, bias_apply]
  rfl

theorem pay0_apply (a x : Vec Ideal S10000x64 .f32) (wl wr : Vec Ideal S64x64 .f32) (bb : Vec Ideal S1x64 .f32)
    (p : Fin 10000) (q : Fin 64) :
    k0_pay1 (F := Ideal) a x wl wr bb (ix2 p q)
      = max ((∑ k : Fin 64, a (ix2 p k) * wl (ix2 q k)) + (∑ k : Fin 64, x (ix2 p k) * wr (ix2 q k)) + bb (ix2 0 q)) 0 := by
  unfold k0_pay1
  rw [maximumf_apply, broadcast_apply, zero_word, shapeCast_self, combine_apply]

theorem pay1_apply (a x : Vec Ideal S10000x64 .f32) (wl wr : Vec Ideal S64x64 .f32) (bb : Vec Ideal S1x64 .f32)
    (p : Fin 10000) (q : Fin 64) :
    k1_pay1 (F := Ideal) a x wl wr bb (ix2 p q)
      = (∑ k : Fin 64, a (ix2 p k) * wl (ix2 q k)) + (∑ k : Fin 64, x (ix2 p k) * wr (ix2 q k)) + bb (ix2 0 q) := by
  unfold k1_pay1
  rw [shapeCast_self, shapeCast_self, combine_apply]

end Cert.KernelIdeal.Pay

end
-- ==== Proof.Region.lean ====
/-
  From row blocks to the array. Each of the two regions runs over ten row blocks of 10000 nodes. At row block `t`
  the body stores, for every row `p` of the block and every output feature `q`,
      Σₖ mean[10000 t + p, k] · W_l[q, k]  +  Σₖ x[10000 t + p, k] · W_r[q, k]  +  b[q]
  (the first region under the positive part): the two node tables are read at row block `t`, the weights and the
  bias whole. So what row block `t` writes back is row block `t` of ONE function of the region-entry arrays, the
  layer's combine; the ten row blocks cover the 100000 rows (row `r` lies under block `r / 10000`), and the result
  array ends holding that function.
-/
import proofs.«172990_j6897717477582_1_alg».proof.Proof.Gen.KernelIdeal.Frame
import proofs.«172990_j6897717477582_1_alg».proof.Proof.Spec
import proofs.«172990_j6897717477582_1_alg».proof.Proof.Payload
import Idealize.ShloMosaic.Lib.ValueIdx
import Idealize.ShloMosaic.Lib.Pipeline.Value
import Mathlib.Algebra.BigOperators.Group.Finset.Basic
import Mathlib.Tactic.FinCases

noncomputable section

namespace Cert.KernelIdeal.Region

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a whole-block access, however spelt. -/
theorem zero_offsets : (![0, 0] : Fin 2 → Nat) = fun _ => 0 := funext fun a => by fin_cases a <;> rfl

/-! ## The first layer -/

/-- One row of a row block, over any blocks that read the tables where the row says: the body's payload at
    (p, q) is the first layer's entry at (n, q). -/
theorem combine_row0 (a x : Vec Ideal S10000x64 .f32) (wl wr : Vec Ideal S64x64 .f32) (bb : Vec Ideal S1x64 .f32)
    (A X : S100000x64.Idx → EReal) (WL WR : S64x64.Idx → EReal) (B : S1x64.Idx → EReal)
    (p : Fin 10000) (q : Fin 64) (n : Fin 100000)
    (ha : ∀ k : Fin 64, a (ix2 p k) = A (ix2 n k)) (hx : ∀ k : Fin 64, x (ix2 p k) = X (ix2 n k))
    (hwl : ∀ k : Fin 64, wl (ix2 q k) = WL (ix2 q k)) (hwr : ∀ k : Fin 64, wr (ix2 q k) = WR (ix2 q k))
    (hb : bb (ix2 0 q) = B (ix2 0 q)) :
    k0_pay1 (F := Ideal) a x wl wr bb (ix2 p q)
      = SageSpec.relu (SageSpec.combine A X WL WR (fun q => B (ix2 0 q))) (ix2 n q) := by
  rw [Pay.pay0_apply]
  show max ((∑ k : Fin 64, a (ix2 p k) * wl (ix2 q k)) + (∑ k : Fin 64, x (ix2 p k) * wr (ix2 q k)) + bb (ix2 0 q)) 0
      = max ((∑ k : Fin 64, A (ix2 n k) * WL (ix2 q k)) + (∑ k : Fin 64, X (ix2 n k) * WR (ix2 q k)) + B (ix2 0 q)) 0
  have hmean : (∑ k : Fin 64, a (ix2 p k) * wl (ix2 q k)) = ∑ k : Fin 64, A (ix2 n k) * WL (ix2 q k) :=
    Finset.sum_congr rfl fun k _ => by rw [ha k, hwl k]
  have hself : (∑ k : Fin 64, x (ix2 p k) * wr (ix2 q k)) = ∑ k : Fin 64, X (ix2 n k) * WR (ix2 q k) :=
    Finset.sum_congr rfl fun k _ => by rw [hx k, hwr k]
  rw [hmean, hself, hb]

/-- The block indices over the ten row blocks: the node tables' windows sit on row block `t`, the weights' and the
    bias's on the whole array. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of row block `t` of the aggregated table is row `10000 t + p` of the table. -/
theorem mean_rows0 (c : Dev nD) (t : Fin cfg0.N) (p : Fin 10000) (k : Fin 64) (n : Fin 100000) (hn : n.val = t.val * 10000 + p.val) :
    (iblk0 V c 0 t : Vec Ideal S10000x64 .f32) (ix2 p k) = (V c main_v24 : S100000x64.Idx → EReal) (ix2 n k) := by
  obtain ⟨e0, e1, -⟩ := block_index0 t
  show V c main_v24 (((cfg0.win 0).blk t).view.emb (ix2 p k)) = V c main_v24 (ix2 n k)
  refine congrArg (V c main_v24) ?_
  funext a; apply Fin.ext
  match a with
  | ⟨0, _⟩ => show win0_0.index t (0 : Fin 2) * 10000 + 1 * p.val = n.val; omega
  | ⟨1, _⟩ => show win0_0.index t (1 : Fin 2) * 64 + 1 * k.val = k.val; omega

/-- Row `p` of row block `t` of the node table is row `10000 t + p` of the table. -/
theorem node_rows0 (c : Dev nD) (t : Fin cfg0.N) (p : Fin 10000) (k : Fin 64) (n : Fin 100000) (hn : n.val = t.val * 10000 + p.val) :
    (iblk0 V c 1 t : Vec Ideal S10000x64 .f32) (ix2 p k) = (V c main_arg0 : S100000x64.Idx → EReal) (ix2 n k) := by
  obtain ⟨-, -, e0, e1, -⟩ := block_index0 t
  show V c main_arg0 (((cfg0.win 1).blk t).view.emb (ix2 p k)) = V c main_arg0 (ix2 n k)
  refine congrArg (V c main_arg0) ?_
  funext a; apply Fin.ext
  match a with
  | ⟨0, _⟩ => show win0_1.index t (0 : Fin 2) * 10000 + 1 * p.val = n.val; omega
  | ⟨1, _⟩ => show win0_1.index t (1 : Fin 2) * 64 + 1 * k.val = k.val; omega

/-- The neighbours' weights are read whole at every row block. -/
theorem wl_whole0 (c : Dev nD) (t : Fin cfg0.N) (o k : Fin 64) :
    (iblk0 V c 2 t : Vec Ideal S64x64 .f32) (ix2 o k) = (V c main_arg2 : S64x64.Idx → EReal) (ix2 o k) := by
  obtain ⟨-, -, -, -, e0, e1, -⟩ := block_index0 t
  show V c main_arg2 (((cfg0.win 2).blk t).view.emb (ix2 o k)) = V c main_arg2 (ix2 o k)
  refine congrArg (V c main_arg2) ?_
  funext a; apply Fin.ext
  match a with
  | ⟨0, _⟩ => show win0_2.index t (0 : Fin 2) * 64 + 1 * o.val = o.val; omega
  | ⟨1, _⟩ => show win0_2.index t (1 : Fin 2) * 64 + 1 * k.val = k.val; omega

/-- The bias is read whole at every row block. -/
theorem bias_whole0 (c : Dev nD) (t : Fin cfg0.N) (q : Fin 64) :
    (iblk0 V c 3 t : Vec Ideal S1x64 .f32) (ix2 0 q) = (V c main_v25 : S1x64.Idx → EReal) (ix2 0 q) := by
  obtain ⟨-, -, -, -, -, -, e0, e1, -⟩ := block_index0 t
  show V c main_v25 (((cfg0.win 3).blk t).view.emb (ix2 0 q)) = V c main_v25 (ix2 0 q)
  refine congrArg (V c main_v25) ?_
  funext a; apply Fin.ext
  match a with
  | ⟨0, _⟩ => show win0_3.index t (0 : Fin 2) * 1 + 1 * (0 : Fin 1).val = (0 : Fin 1).val; omega
  | ⟨1, _⟩ => show win0_3.index t (1 : Fin 2) * 64 + 1 * q.val = q.val; omega

/-- The node's own weights are read whole at every row block. -/
theorem wr_whole0 (c : Dev nD) (t : Fin cfg0.N) (o k : Fin 64) :
    (iblk0 V c 4 t : Vec Ideal S64x64 .f32) (ix2 o k) = (V c main_arg4 : S64x64.Idx → EReal) (ix2 o k) := by
  obtain ⟨-, -, -, -, -, -, -, -, e0, e1, -⟩ := block_index0 t
  show V c main_arg4 (((cfg0.win 4).blk t).view.emb (ix2 o k)) = V c main_arg4 (ix2 o k)
  refine congrArg (V c main_arg4) ?_
  funext a; apply Fin.ext
  match a with
  | ⟨0, _⟩ => show win0_4.index t (0 : Fin 2) * 64 + 1 * o.val = o.val; omega
  | ⟨1, _⟩ => show win0_4.index t (1 : Fin 2) * 64 + 1 * k.val = k.val; omega

/-- The first layer's table: the combine of the region-entry arrays under the positive part. -/
abbrev layer0 (c : Dev nD) : S100000x64.Idx → EReal :=
  SageSpec.relu (SageSpec.combine (V c main_v24) (V c main_arg0) (V c main_arg2) (V c main_arg4) (fun q => V c main_v25 (ix2 0 q)))

/-- What row block `t` writes back is row block `t` of the first layer's table. -/
theorem flushed_rows0 (c : Dev nD) (t : Fin cfg0.N) :
    (dat0 (F := Ideal) V c).flushed 5 t = ((cfg0.win 5).blk t).view.read (Elt Ideal) (layer0 V c) := by
  show (cfg0.win 5).cut (grid0.coords t) ((dat0 V c).after 5 t) = _
  rw [after0_5]
  unfold out0_5
  rw [View.canon_unit_zero zero_offsets]
  simp only [View.ld_unit_zero (S := S10000x64) zero_offsets, View.ld_unit_zero (S := S64x64) zero_offsets, View.ld_unit_zero (S := S1x64) zero_offsets]
  funext j
  obtain ⟨p, q, rfl⟩ : ∃ (p : Fin 10000) (q : Fin 64), j = ix2 p q := ⟨j 0, j 1, eq_ix2 j⟩
  have ht : t.val < 10 := t.isLt
  obtain ⟨-, -, -, -, -, -, -, -, -, -, e0, e1⟩ := block_index0 t
  have hrow : ((cfg0.win 5).blk t).view.emb (ix2 p q) = ix2 (n0 := 100000) (n1 := 64) ⟨t.val * 10000 + p.val, by omega⟩ q := by
    funext a; apply Fin.ext
    match a with
    | ⟨0, _⟩ => show win0_5.index t (0 : Fin 2) * 10000 + 1 * p.val = t.val * 10000 + p.val; omega
    | ⟨1, _⟩ => show win0_5.index t (1 : Fin 2) * 64 + 1 * q.val = q.val; omega
  have hin : (win0 5).xinj (grid0.coords t) (ix2 p q) = ix2 p q := by
    funext a
    match a with
    | ⟨0, _⟩ => rfl
    | ⟨1, _⟩ => rfl
  show k0_pay1 (F := Ideal) (iblk0 V c 0 t) (iblk0 V c 1 t) (iblk0 V c 2 t) (iblk0 V c 4 t) (iblk0 V c 3 t) ((win0 5).xinj (grid0.coords t) (ix2 p q))
      = layer0 V c (((cfg0.win 5).blk t).view.emb (ix2 p q))
  rw [hin, hrow]
  exact combine_row0 (iblk0 V c 0 t) (iblk0 V c 1 t) (iblk0 V c 2 t) (iblk0 V c 4 t) (iblk0 V c 3 t)
    (V c main_v24) (V c main_arg0) (V c main_arg2) (V c main_arg4) (V c main_v25) p q ⟨t.val * 10000 + p.val, by omega⟩
    (fun k => mean_rows0 V c t p k _ rfl) (fun k => node_rows0 V c t p k _ rfl)
    (fun k => wl_whole0 V c t q k) (fun k => wr_whole0 V c t q k) (bias_whole0 V c t q)

/-- A node-table index is under row block `t` iff each coordinate is in the block's range on its axis. -/
theorem mem_rows0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v26).slice (win0_5.rect t)).set ↔ _
  rw [View.set_slice_whole, Rect.mem_set_unit]
  exact Iff.rfl

/-- Every row is under a row block: row `r` under block `r / 10000`. -/
theorem rows_covered0 (i : S100000x64.Idx) :
    ∃ t : Fin cfg0.N, (cfg0.win 5).flush t = true ∧ i ∈ ((cfg0.win 5).blk t).view.set := by
  have hr : (i 0).val < 100000 := (i 0).isLt
  have hf : (i 1).val < 64 := (i 1).isLt
  refine ⟨⟨(i 0).val / 10000, by show (i 0).val / 10000 < 10; omega⟩, flush0_5 _, ?_⟩
  rw [mem_rows0]
  obtain ⟨-, -, -, -, -, -, -, -, -, -, e0, e1⟩ := block_index0 ⟨(i 0).val / 10000, by show (i 0).val / 10000 < 10; omega⟩
  intro a
  match a with
  | ⟨0, _⟩ =>
    show win0_5.index _ (0 : Fin 2) * 10000 ≤ (i 0).val ∧ (i 0).val < win0_5.index _ (0 : Fin 2) * 10000 + 10000
    rw [e0]; show (i 0).val / 10000 * 10000 ≤ (i 0).val ∧ (i 0).val < (i 0).val / 10000 * 10000 + 10000; omega
  | ⟨1, _⟩ =>
    show win0_5.index _ (1 : Fin 2) * 64 ≤ (i 1).val ∧ (i 1).val < win0_5.index _ (1 : Fin 2) * 64 + 64
    rw [e1]; omega

/-- After the first region the result array is the first layer's table: the combine of the region-entry arrays
    under the positive part, at every node and feature. -/
theorem final0 (c : Dev nD) :
    (dat0 (F := Ideal) V c).arrAt 5 cfg0.N
      = SageSpec.relu (SageSpec.combine (V c main_v24) (V c main_arg0) (V c main_arg2) (V c main_arg4) (fun q => V c main_v25 (ix2 0 q))) :=
  (dat0 (F := Ideal) V c).arrAt_eq_of_cover 5 (layer0 V c) (fun t _ => flushed_rows0 V c t) rows_covered0

/-! ## The second layer -/

/-- One row of a row block, over any blocks that read the tables where the row says: the body's payload at
    (p, q) is the second layer's entry at (n, q), with no positive part. -/
theorem combine_row1 (a x : Vec Ideal S10000x64 .f32) (wl wr : Vec Ideal S64x64 .f32) (bb : Vec Ideal S1x64 .f32)
    (A X : S100000x64.Idx → EReal) (WL WR : S64x64.Idx → EReal) (B : S1x64.Idx → EReal)
    (p : Fin 10000) (q : Fin 64) (n : Fin 100000)
    (ha : ∀ k : Fin 64, a (ix2 p k) = A (ix2 n k)) (hx : ∀ k : Fin 64, x (ix2 p k) = X (ix2 n k))
    (hwl : ∀ k : Fin 64, wl (ix2 q k) = WL (ix2 q k)) (hwr : ∀ k : Fin 64, wr (ix2 q k) = WR (ix2 q k))
    (hb : bb (ix2 0 q) = B (ix2 0 q)) :
    k1_pay1 (F := Ideal) a x wl wr bb (ix2 p q)
      = SageSpec.combine A X WL WR (fun q => B (ix2 0 q)) (ix2 n q) := by
  rw [Pay.pay1_apply]
  show (∑ k : Fin 64, a (ix2 p k) * wl (ix2 q k)) + (∑ k : Fin 64, x (ix2 p k) * wr (ix2 q k)) + bb (ix2 0 q)
      = (∑ k : Fin 64, A (ix2 n k) * WL (ix2 q k)) + (∑ k : Fin 64, X (ix2 n k) * WR (ix2 q k)) + B (ix2 0 q)
  have hmean : (∑ k : Fin 64, a (ix2 p k) * wl (ix2 q k)) = ∑ k : Fin 64, A (ix2 n k) * WL (ix2 q k) :=
    Finset.sum_congr rfl fun k _ => by rw [ha k, hwl k]
  have hself : (∑ k : Fin 64, x (ix2 p k) * wr (ix2 q k)) = ∑ k : Fin 64, X (ix2 n k) * WR (ix2 q k) :=
    Finset.sum_congr rfl fun k _ => by rw [hx k, hwr k]
  rw [hmean, hself, hb]

/-- The block indices over the ten row blocks: the node tables' windows sit on row block `t`, the weights' and the
    bias's on the whole array. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of row block `t` of the aggregated table is row `10000 t + p` of the table. -/
theorem mean_rows1 (c : Dev nD) (t : Fin cfg1.N) (p : Fin 10000) (k : Fin 64) (n : Fin 100000) (hn : n.val = t.val * 10000 + p.val) :
    (iblk1 V c 0 t : Vec Ideal S10000x64 .f32) (ix2 p k) = (V c main_v38 : S100000x64.Idx → EReal) (ix2 n k) := by
  obtain ⟨e0, e1, -⟩ := block_index1 t
  show V c main_v38 (((cfg1.win 0).blk t).view.emb (ix2 p k)) = V c main_v38 (ix2 n k)
  refine congrArg (V c main_v38) ?_
  funext a; apply Fin.ext
  match a with
  | ⟨0, _⟩ => show win1_0.index t (0 : Fin 2) * 10000 + 1 * p.val = n.val; omega
  | ⟨1, _⟩ => show win1_0.index t (1 : Fin 2) * 64 + 1 * k.val = k.val; omega

/-- Row `p` of row block `t` of the first layer's table is row `10000 t + p` of the table. -/
theorem node_rows1 (c : Dev nD) (t : Fin cfg1.N) (p : Fin 10000) (k : Fin 64) (n : Fin 100000) (hn : n.val = t.val * 10000 + p.val) :
    (iblk1 V c 1 t : Vec Ideal S10000x64 .f32) (ix2 p k) = (V c main_v26 : S100000x64.Idx → EReal) (ix2 n k) := by
  obtain ⟨-, -, e0, e1, -⟩ := block_index1 t
  show V c main_v26 (((cfg1.win 1).blk t).view.emb (ix2 p k)) = V c main_v26 (ix2 n k)
  refine congrArg (V c main_v26) ?_
  funext a; apply Fin.ext
  match a with
  | ⟨0, _⟩ => show win1_1.index t (0 : Fin 2) * 10000 + 1 * p.val = n.val; omega
  | ⟨1, _⟩ => show win1_1.index t (1 : Fin 2) * 64 + 1 * k.val = k.val; omega

/-- The neighbours' weights are read whole at every row block. -/
theorem wl_whole1 (c : Dev nD) (t : Fin cfg1.N) (o k : Fin 64) :
    (iblk1 V c 2 t : Vec Ideal S64x64 .f32) (ix2 o k) = (V c main_arg5 : S64x64.Idx → EReal) (ix2 o k) := by
  obtain ⟨-, -, -, -, e0, e1, -⟩ := block_index1 t
  show V c main_arg5 (((cfg1.win 2).blk t).view.emb (ix2 o k)) = V c main_arg5 (ix2 o k)
  refine congrArg (V c main_arg5) ?_
  funext a; apply Fin.ext
  match a with
  | ⟨0, _⟩ => show win1_2.index t (0 : Fin 2) * 64 + 1 * o.val = o.val; omega
  | ⟨1, _⟩ => show win1_2.index t (1 : Fin 2) * 64 + 1 * k.val = k.val; omega

/-- The bias is read whole at every row block. -/
theorem bias_whole1 (c : Dev nD) (t : Fin cfg1.N) (q : Fin 64) :
    (iblk1 V c 3 t : Vec Ideal S1x64 .f32) (ix2 0 q) = (V c main_v39 : S1x64.Idx → EReal) (ix2 0 q) := by
  obtain ⟨-, -, -, -, -, -, e0, e1, -⟩ := block_index1 t
  show V c main_v39 (((cfg1.win 3).blk t).view.emb (ix2 0 q)) = V c main_v39 (ix2 0 q)
  refine congrArg (V c main_v39) ?_
  funext a; apply Fin.ext
  match a with
  | ⟨0, _⟩ => show win1_3.index t (0 : Fin 2) * 1 + 1 * (0 : Fin 1).val = (0 : Fin 1).val; omega
  | ⟨1, _⟩ => show win1_3.index t (1 : Fin 2) * 64 + 1 * q.val = q.val; omega

/-- The node's own weights are read whole at every row block. -/
theorem wr_whole1 (c : Dev nD) (t : Fin cfg1.N) (o k : Fin 64) :
    (iblk1 V c 4 t : Vec Ideal S64x64 .f32) (ix2 o k) = (V c main_arg7 : S64x64.Idx → EReal) (ix2 o k) := by
  obtain ⟨-, -, -, -, -, -, -, -, e0, e1, -⟩ := block_index1 t
  show V c main_arg7 (((cfg1.win 4).blk t).view.emb (ix2 o k)) = V c main_arg7 (ix2 o k)
  refine congrArg (V c main_arg7) ?_
  funext a; apply Fin.ext
  match a with
  | ⟨0, _⟩ => show win1_4.index t (0 : Fin 2) * 64 + 1 * o.val = o.val; omega
  | ⟨1, _⟩ => show win1_4.index t (1 : Fin 2) * 64 + 1 * k.val = k.val; omega

/-- The second layer's table: the combine of the region-entry arrays. -/
abbrev layer1 (c : Dev nD) : S100000x64.Idx → EReal :=
  SageSpec.combine (V c main_v38) (V c main_v26) (V c main_arg5) (V c main_arg7) (fun q => V c main_v39 (ix2 0 q))

/-- What row block `t` writes back is row block `t` of the second layer's table. -/
theorem flushed_rows1 (c : Dev nD) (t : Fin cfg1.N) :
    (dat1 (F := Ideal) V c).flushed 5 t = ((cfg1.win 5).blk t).view.read (Elt Ideal) (layer1 V c) := by
  show (cfg1.win 5).cut (grid1.coords t) ((dat1 V c).after 5 t) = _
  rw [after1_5]
  unfold out1_5
  rw [View.canon_unit_zero zero_offsets]
  simp only [View.ld_unit_zero (S := S10000x64) zero_offsets, View.ld_unit_zero (S := S64x64) zero_offsets, View.ld_unit_zero (S := S1x64) zero_offsets]
  funext j
  obtain ⟨p, q, rfl⟩ : ∃ (p : Fin 10000) (q : Fin 64), j = ix2 p q := ⟨j 0, j 1, eq_ix2 j⟩
  have ht : t.val < 10 := t.isLt
  obtain ⟨-, -, -, -, -, -, -, -, -, -, e0, e1⟩ := block_index1 t
  have hrow : ((cfg1.win 5).blk t).view.emb (ix2 p q) = ix2 (n0 := 100000) (n1 := 64) ⟨t.val * 10000 + p.val, by omega⟩ q := by
    funext a; apply Fin.ext
    match a with
    | ⟨0, _⟩ => show win1_5.index t (0 : Fin 2) * 10000 + 1 * p.val = t.val * 10000 + p.val; omega
    | ⟨1, _⟩ => show win1_5.index t (1 : Fin 2) * 64 + 1 * q.val = q.val; omega
  have hin : (win1 5).xinj (grid1.coords t) (ix2 p q) = ix2 p q := by
    funext a
    match a with
    | ⟨0, _⟩ => rfl
    | ⟨1, _⟩ => rfl
  show k1_pay1 (F := Ideal) (iblk1 V c 0 t) (iblk1 V c 1 t) (iblk1 V c 2 t) (iblk1 V c 4 t) (iblk1 V c 3 t) ((win1 5).xinj (grid1.coords t) (ix2 p q))
      = layer1 V c (((cfg1.win 5).blk t).view.emb (ix2 p q))
  rw [hin, hrow]
  exact combine_row1 (iblk1 V c 0 t) (iblk1 V c 1 t) (iblk1 V c 2 t) (iblk1 V c 4 t) (iblk1 V c 3 t)
    (V c main_v38) (V c main_v26) (V c main_arg5) (V c main_arg7) (V c main_v39) p q ⟨t.val * 10000 + p.val, by omega⟩
    (fun k => mean_rows1 V c t p k _ rfl) (fun k => node_rows1 V c t p k _ rfl)
    (fun k => wl_whole1 V c t q k) (fun k => wr_whole1 V c t q k) (bias_whole1 V c t q)

/-- A node-table index is under row block `t` iff each coordinate is in the block's range on its axis. -/
theorem mem_rows1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v40).slice (win1_5.rect t)).set ↔ _
  rw [View.set_slice_whole, Rect.mem_set_unit]
  exact Iff.rfl

/-- Every row is under a row block: row `r` under block `r / 10000`. -/
theorem rows_covered1 (i : S100000x64.Idx) :
    ∃ t : Fin cfg1.N, (cfg1.win 5).flush t = true ∧ i ∈ ((cfg1.win 5).blk t).view.set := by
  have hr : (i 0).val < 100000 := (i 0).isLt
  have hf : (i 1).val < 64 := (i 1).isLt
  refine ⟨⟨(i 0).val / 10000, by show (i 0).val / 10000 < 10; omega⟩, flush1_5 _, ?_⟩
  rw [mem_rows1]
  obtain ⟨-, -, -, -, -, -, -, -, -, -, e0, e1⟩ := block_index1 ⟨(i 0).val / 10000, by show (i 0).val / 10000 < 10; omega⟩
  intro a
  match a with
  | ⟨0, _⟩ =>
    show win1_5.index _ (0 : Fin 2) * 10000 ≤ (i 0).val ∧ (i 0).val < win1_5.index _ (0 : Fin 2) * 10000 + 10000
    rw [e0]; show (i 0).val / 10000 * 10000 ≤ (i 0).val ∧ (i 0).val < (i 0).val / 10000 * 10000 + 10000; omega
  | ⟨1, _⟩ =>
    show win1_5.index _ (1 : Fin 2) * 64 ≤ (i 1).val ∧ (i 1).val < win1_5.index _ (1 : Fin 2) * 64 + 64
    rw [e1]; omega

/-- After the second region the result array is the second layer's table: the combine of the region-entry arrays,
    at every node and feature. -/
theorem final1 (c : Dev nD) :
    (dat1 (F := Ideal) V c).arrAt 5 cfg1.N
      = SageSpec.combine (V c main_v38) (V c main_v26) (V c main_arg5) (V c main_arg7) (fun q => V c main_v39 (ix2 0 q)) :=
  (dat1 (F := Ideal) V c).arrAt_eq_of_cover 5 (layer1 V c) (fun t _ => flushed_rows1 V c t) rows_covered1

end Cert.KernelIdeal.Region

end
-- ==== Proof.HostSide.lean ====
import proofs.«172990_j6897717477582_1_alg».proof.Proof.Gen.KernelIdeal.Frame
import proofs.«172990_j6897717477582_1_alg».proof.Proof.Spec
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo

/-- The edge list: row 0 the sources, row 1 the destinations. -/
abbrev Edges : Type := (⟨S2x1250000, .i32⟩ : BufTy).Contents (Elt Ideal)

/-- The edges' sources as a vector. -/
def srcRow (e : Edges) : (⟨S1250000, .i32⟩ : BufTy).Contents (Elt Ideal) :=
  shapeCast _ (extractStridedSlice S1x1250000 ![0, 0] e slices_S2x1250000_S1x1250000_0_0) shapeCasts_S1x1250000_S1250000

/-- The edges' destinations as a vector. -/
def dstRow (e : Edges) : (⟨S1250000, .i32⟩ : BufTy).Contents (Elt Ideal) :=
  shapeCast _ (extractStridedSlice S1x1250000 ![1, 0] e slices_S2x1250000_S1x1250000_1_0) shapeCasts_S1x1250000_S1250000

/-- The sources as a column of row indices, a negative one counted from the end. -/
def srcCol (e : Edges) : (⟨S1250000x1, .i32⟩ : BufTy).Contents (Elt Ideal) :=
  broadcastInDim S1250000x1 ![0] bcast_S1250000_S1250000x1_0
    (select (cmpi .slt (srcRow e) (broadcastInDim S1250000 ![] bcast_S_S1250000 (constantI S_ 32 0#32)))
      (addi (srcRow e) (broadcastInDim S1250000 ![] bcast_S_S1250000 (constantI S_ 32 100000#32))) (srcRow e))

/-- The destinations as a column of row indices. -/
def dstCol (e : Edges) : (⟨S1250000x1, .i32⟩ : BufTy).Contents (Elt Ideal) :=
  broadcastInDim S1250000x1 ![0] bcast_S1250000_S1250000x1_0 (dstRow e)

/-- The aggregation along the edges: gather the rows of `v` at the sources, add them into the destination rows,
    from zero. -/
def agg (e : Edges) (v : (⟨S100000x64, .f32⟩ : BufTy).Contents (Elt Ideal)) : (⟨S100000x64, .f32⟩ : BufTy).Contents (Elt Ideal) :=
  Host.scatterAdd (F := Ideal) (φ := .f32) scatter_S100000x64_S1250000x1_S1250000x64_1_0_0_1
    (broadcastInDim S100000x64 ![] bcast_S_S100000x64 (constant S_ .f32 0x00000000#32)) (dstCol e)
    (Host.gather gather_S100000x64_S1250000x1_S1250000x64_1_0_n_n_0_1_164 v (srcCol e) : (⟨S1250000x64, .f32⟩ : BufTy).Contents (Elt Ideal))

/-- The number of edges ending in each node: ones added into the destinations, from zero. -/
def edgeCount (e : Edges) : FVec Ideal S100000 .f32 :=
  Host.scatterAdd (F := Ideal) (φ := .f32) scatter_S100000_S1250000x1_S1250000_n_0_0_1
    (broadcastInDim S100000 ![] bcast_S_S100000 (constant S_ .f32 0x00000000#32)) (dstCol e)
    (broadcastInDim S1250000 ![] bcast_S_S1250000 (constant S_ .f32 0x3F800000#32))

/-- The constant-one vector over the nodes. -/
def onesN : FVec Ideal S100000 .f32 :=
  broadcastInDim S100000 ![] bcast_S_S100000 (constant S_ .f32 0x3F800000#32)

/-- The number of edges ending in each node, clipped below by one. -/
def countMax (e : Edges) : FVec Ideal S100000 .f32 :=
  maximumf (edgeCount e) onesN

/-- The reciprocal of each node's clipped count, as a column. -/
def recipCol (e : Edges) : FVec Ideal S100000x1 .f32 :=
  broadcastInDim S100000x1 ![0] bcast_S100000_S100000x1_0 (Host.divf onesN (countMax e))

/-- The aggregate with each row multiplied by its node's reciprocal count. -/
def scaled (e : Edges) (v : (⟨S100000x64, .f32⟩ : BufTy).Contents (Elt Ideal)) : (⟨S100000x64, .f32⟩ : BufTy).Contents (Elt Ideal) :=
  mulf (F := Ideal) (φ := .f32) (agg e v) (broadcastInDim S100000x64 ![0, 1] bcast_S100000x1_S100000x64_0_1 (recipCol e))

/-! ## The host-side pieces read at an index -/

/-- The word 0x3F800000 denotes one. -/
theorem one_word : Ideal.ofBits .f32 0x3F800000#32 = 1 := by
  simp [Ideal.ofBits, Ideal.ieee]
  rw [← EReal.coe_mul, ← EReal.coe_one]
  exact congrArg _ (by norm_num)

/-- The constant-one vector over the nodes reads one everywhere. -/
theorem ones_apply (i : S100000.Idx) : onesN i = 1 := by
  unfold onesN
  rw [broadcastInDim_apply _ bcast_S_S100000 _ i (fun a => a.elim0) (fun a => a.elim0), constant_apply]
  exact one_word

/-- Node `n`'s clipped count. -/
def cmax (e : Edges) : Fin 100000 → EReal := fun n => countMax e (ix1 n)

/-- A vector clipped below by a vector of ones is nowhere zero: it is at least one. -/
theorem clip_ne_zero (x o : FVec Ideal S100000 .f32) (ho : ∀ i, o i = 1) (i : S100000.Idx) : maximumf x o i ≠ 0 := by
  rw [maximumf_apply, ho]
  exact SageSpec.max_one_ne_zero _

theorem cmax_ne_zero (e : Edges) (n : Fin 100000) : cmax e n ≠ 0 :=
  clip_ne_zero (edgeCount e) onesN ones_apply (ix1 n)

/-- Entry (n, k) of a node table has its per-node column entry at (n, 0), -/
abbrev colOf (i : S100000x64.Idx) : S100000x1.Idx := fun a => match a with
  | ⟨0, _⟩ => ⟨(i 0).val, (i 0).isLt⟩
  | ⟨1, _⟩ => ⟨0, Nat.one_pos⟩
/-- and that column entry comes from the per-node vector's entry n. -/
abbrev rowOf (i : S100000x1.Idx) : S100000.Idx := fun a => match a with
  | ⟨0, _⟩ => ⟨(i 0).val, (i 0).isLt⟩

theorem rowOf_colOf (i : S100000x64.Idx) : rowOf (colOf i) = ix1 (n := 100000) (i 0) :=
  funext fun a => match a with | ⟨0, _⟩ => rfl

/-- A per-node vector made a column and repeated along the features reads, at (n, k), its entry n. -/
theorem perNode_apply (y : FVec Ideal S100000 .f32) (i : S100000x64.Idx) :
    broadcastInDim S100000x64 ![0, 1] bcast_S100000x1_S100000x64_0_1 (broadcastInDim S100000x1 ![0] bcast_S100000_S100000x1_0 y) i
      = y (ix1 (n := 100000) (i 0)) :=
  ((broadcastInDim_apply _ bcast_S100000x1_S100000x64_0_1 _ i (colOf i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans
  (broadcastInDim_apply _ bcast_S100000_S100000x1_0 y (colOf i) (rowOf (colOf i)) (fun a => match a with
    | ⟨0, _⟩ => by show (i 0).val = if (100000 : Nat) = 1 then 0 else (i 0).val; rw [if_neg (by decide)]))).trans
  (congrArg y (rowOf_colOf i))

/-- The quotient of a vector of ones by a vector reads, at an entry, one over that vector's entry. -/
theorem recipOf_apply (o y : FVec Ideal S100000 .f32) (i : S100000.Idx) (ho : o i = 1) :
    Host.divf o y i = Ideal.div 1 (y i) := by
  show FloatOps.hostDivf (o i) (y i) = _
  rw [ho]
  rfl

/-- A table times the column of reciprocals of a per-node vector, repeated along the features, is the table with
    each row multiplied by the reciprocal of its node's entry. -/
theorem timesRecipCol_eq (a : FVec Ideal S100000x64 .f32) (o y : FVec Ideal S100000 .f32) (ho : ∀ i, o i = 1) :
    mulf a (broadcastInDim S100000x64 ![0, 1] bcast_S100000x1_S100000x64_0_1
        (broadcastInDim S100000x1 ![0] bcast_S100000_S100000x1_0 (Host.divf o y)))
      = SageSpec.timesRecip a (fun n => y (ix1 n)) := by
  funext i
  rw [mulf_apply, perNode_apply, recipOf_apply o y _ (ho _)]
  rfl

/-- The scaled aggregate is the aggregate times the reciprocal of each row's clipped count. -/
theorem scaled_eq (e : Edges) (v : (⟨S100000x64, .f32⟩ : BufTy).Contents (Elt Ideal)) :
    scaled e v = SageSpec.timesRecip (agg e v) (cmax e) :=
  timesRecipCol_eq (agg e v) onesN (countMax e) ones_apply

/-- The scaled aggregate is the mean over the incoming edges. -/
theorem scaled_eq_mean (e : Edges) (v : (⟨S100000x64, .f32⟩ : BufTy).Contents (Elt Ideal)) :
    scaled e v = SageSpec.meanBy (agg e v) (cmax e) :=
  (scaled_eq e v).trans (SageSpec.timesRecip_eq_meanBy _ _ (cmax_ne_zero e))

/-- A 64-vector reshaped to one row reads, at (0, q), its entry q. -/
theorem biasRow_apply (b : (⟨S64, .f32⟩ : BufTy).Contents (Elt Ideal)) (q : Fin 64) :
    shapeCast S1x64 b shapeCasts_S64_S1x64 (ix2 0 q) = b (ix1 q) :=
  (shapeCast_addUnit_apply ![64] b shapeCasts_S64_S1x64 (ix2 0 q)).trans
    (congrArg b (funext fun a => match a with | ⟨0, _⟩ => rfl))

end Cert.KernelIdeal.HostSide

end
-- ==== Proof.Entry.lean ====
import proofs.«172990_j6897717477582_1_alg».proof.Proof.HostSide

set_option maxRecDepth 16384

noncomputable section

namespace Cert.KernelIdeal.HostSide

open Cert.KernelIdeal Cert.KernelIdeal.Gen Idealize.ShloMosaic Idealize.ShloMosaic.TcCoe Idealize.ShloMosaic.ValueIdx Idealize.SL.Sem
open Idealize.ShloMosaic.StableHlo

/-! ## What each call finds on entry -/

variable (m : (ℓ : Loc nD τ sig) → Buf (Elt Ideal) ℓ) (ρ : Dev nD → PrngReg)

/-- The edge list and the node features as launched. -/
abbrev edges (c : Dev nD) : Edges := m ((c : Thread nD τ).loc main_arg1)

set_option maxHeartbeats 8000000 in
/-- Entering the first call, its first operand is the scaled aggregate of the input features. -/
theorem entry0_mean (c : Dev nD) :
    V1 m ρ c main_v24 = scaled (edges m c) (m ((c : Thread nD τ).loc main_arg0)) := by
  show StableHlo.after hostOps0 (W0 m ρ c) (Proc.devRef .tc main_v24) = _
  after_results_simp
  rfl

set_option maxHeartbeats 8000000 in
/-- Its bias operand is the first bias as one row. -/
theorem entry0_bias (c : Dev nD) :
    V1 m ρ c main_v25 = shapeCast S1x64 (m ((c : Thread nD τ).loc main_arg3)) shapeCasts_S64_S1x64 := by
  show StableHlo.after hostOps0 (W0 m ρ c) (Proc.devRef .tc main_v25) = _
  after_results_simp
  rfl

set_option maxHeartbeats 8000000 in
/-- The first stretch writes no argument. -/
theorem entry0_arg (c : Dev nD) :
    V1 m ρ c main_arg0 = m ((c : Thread nD τ).loc main_arg0) ∧ V1 m ρ c main_arg2 = m ((c : Thread nD τ).loc main_arg2)
      ∧ V1 m ρ c main_arg4 = m ((c : Thread nD τ).loc main_arg4) := by
  refine ⟨?_, ?_, ?_⟩
  · show StableHlo.after hostOps0 (W0 m ρ c) (Proc.devRef .tc main_arg0) = _
    after_results_simp <;> rfl
  · show StableHlo.after hostOps0 (W0 m ρ c) (Proc.devRef .tc main_arg2) = _
    after_results_simp <;> rfl
  · show StableHlo.after hostOps0 (W0 m ρ c) (Proc.devRef .tc main_arg4) = _
    after_results_simp <;> rfl

set_option maxHeartbeats 8000000 in
/-- Across the first call the first stretch's index vectors and reciprocal column stay as written, -/
theorem across_src (c : Dev nD) : W2 m ρ c (Proc.devRef .tc main_v1) = srcRow (edges m c) :=
  (W2_of_ne m ρ c main_v1 (by decide)).trans (by
    show StableHlo.after hostOps0 (W0 m ρ c) (Proc.devRef .tc main_v1) = _
    after_results_simp
    rfl)

set_option maxHeartbeats 8000000 in
theorem across_dst (c : Dev nD) : W2 m ρ c (Proc.devRef .tc main_v3) = dstRow (edges m c) :=
  (W2_of_ne m ρ c main_v3 (by decide)).trans (by
    show StableHlo.after hostOps0 (W0 m ρ c) (Proc.devRef .tc main_v3) = _
    after_results_simp
    rfl)

set_option maxHeartbeats 8000000 in
theorem across_recip (c : Dev nD) : W2 m ρ c (Proc.devRef .tc main_v12) = recipCol (edges m c) :=
  (W2_of_ne m ρ c main_v12 (by decide)).trans (by
    show StableHlo.after hostOps0 (W0 m ρ c) (Proc.devRef .tc main_v12) = _
    after_results_simp
    rfl)

set_option maxHeartbeats 8000000 in
/-- and so do the arguments the second call reads. -/
theorem across_arg (c : Dev nD) :
    W2 m ρ c (Proc.devRef .tc main_arg5) = m ((c : Thread nD τ).loc main_arg5)
      ∧ W2 m ρ c (Proc.devRef .tc main_arg6) = m ((c : Thread nD τ).loc main_arg6)
      ∧ W2 m ρ c (Proc.devRef .tc main_arg7) = m ((c : Thread nD τ).loc main_arg7) := by
  refine ⟨(W2_of_ne m ρ c main_arg5 (by decide)).trans ?_, (W2_of_ne m ρ c main_arg6 (by decide)).trans ?_,
    (W2_of_ne m ρ c main_arg7 (by decide)).trans ?_⟩
  · show StableHlo.after hostOps0 (W0 m ρ c) (Proc.devRef .tc main_arg5) = _
    after_results_simp <;> rfl
  · show StableHlo.after hostOps0 (W0 m ρ c) (Proc.devRef .tc main_arg6) = _
    after_results_simp <;> rfl
  · show StableHlo.after hostOps0 (W0 m ρ c) (Proc.devRef .tc main_arg7) = _
    after_results_simp <;> rfl

set_option maxHeartbeats 8000000 in
/-- Entering the second call, its first operand is the scaled aggregate of the first call's result. -/
theorem entry1_mean (c : Dev nD) :
    V3 m ρ c main_v38 = scaled (edges m c) (V2 m ρ c main_v26) := by
  show StableHlo.after hostOps1 (W2 m ρ c) (Proc.devRef .tc main_v38) = _
  after_results_simp
  rw [across_src, across_dst, across_recip]
  rfl

set_option maxHeartbeats 8000000 in
/-- Its second operand is the first call's result as that call left it, -/
theorem entry1_self (c : Dev nD) : V3 m ρ c main_v26 = V2 m ρ c main_v26 := by
  show StableHlo.after hostOps1 (W2 m ρ c) (Proc.devRef .tc main_v26) = _
  after_results_simp <;> rfl

set_option maxHeartbeats 8000000 in
/-- its bias operand the second bias as one row, -/
theorem entry1_bias (c : Dev nD) :
    V3 m ρ c main_v39 = shapeCast S1x64 (m ((c : Thread nD τ).loc main_arg6)) shapeCasts_S64_S1x64 := by
  show StableHlo.after hostOps1 (W2 m ρ c) (Proc.devRef .tc main_v39) = _
  after_results_simp
  rw [(across_arg m ρ c).2.1]
  rfl

set_option maxHeartbeats 8000000 in
/-- and its weights the second layer's, as launched. -/
theorem entry1_arg (c : Dev nD) :
    V3 m ρ c main_arg5 = m ((c : Thread nD τ).loc main_arg5) ∧ V3 m ρ c main_arg7 = m ((c : Thread nD τ).loc main_arg7) := by
  refine ⟨?_, ?_⟩
  · show StableHlo.after hostOps1 (W2 m ρ c) (Proc.devRef .tc main_arg5) = _
    after_results_simp
    exact (across_arg m ρ c).1
  · show StableHlo.after hostOps1 (W2 m ρ c) (Proc.devRef .tc main_arg7) = _
    after_results_simp
    exact (across_arg m ρ c).2.2

end Cert.KernelIdeal.HostSide

end
-- ==== Proof.KernelValue.lean ====
import proofs.«172990_j6897717477582_1_alg».proof.Proof.Region
import proofs.«172990_j6897717477582_1_alg».proof.Proof.Entry

set_option maxRecDepth 16384

noncomputable section

namespace Cert.KernelIdeal.KValue

open Cert.KernelIdeal Cert.KernelIdeal.Gen Cert.KernelIdeal.HostSide
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first layer followed by the positive part, of the arguments as launched. -/
def hidden (c : Dev nD) : SageSpec.Nd.Idx → EReal :=
  SageSpec.relu (SageSpec.combine
    (SageSpec.meanBy (agg (edges m c) (m ((c : Thread nD τ).loc main_arg0))) (cmax (edges m c)))
    (m ((c : Thread nD τ).loc main_arg0)) (m ((c : Thread nD τ).loc main_arg2)) (m ((c : Thread nD τ).loc main_arg4))
    (fun q => m ((c : Thread nD τ).loc main_arg3) (ix1 q)))

/-- What the first call leaves in its output array: the first layer's result — the call's combine of the scaled
    aggregate, the features, the two weights and the bias row it finds on entry, the scaled aggregate being the mean. -/
theorem first_call (c : Dev nD) : V2 m ρ c main_v26 = hidden m c := by
  have hb : (fun q : Fin 64 => V1 m ρ c main_v25 (ix2 0 q)) = fun q => m ((c : Thread nD τ).loc main_arg3) (ix1 q) := by
    rw [entry0_bias]
    exact funext fun q => biasRow_apply _ q
  show W2 m ρ c (Proc.devRef .tc (Pipeline.arrRef spec0 5)) = _
  rw [W2_arr m ρ c 5, Region.final0 (V1 m ρ) c, hb, entry0_mean, (entry0_arg m ρ c).1, (entry0_arg m ρ c).2.1,
    (entry0_arg m ρ c).2.2, scaled_eq_mean]
  rfl

/-- The two layers, spelt out. -/
theorem twoLayers_def (A : (SageSpec.Nd.Idx → EReal) → SageSpec.Nd.Idx → EReal) (cm : Fin 100000 → EReal) (x : SageSpec.Nd.Idx → EReal)
    (w1l w1r : SageSpec.Wt.Idx → EReal) (b1 : Fin 64 → EReal) (w2l w2r : SageSpec.Wt.Idx → EReal) (b2 : Fin 64 → EReal) :
    SageSpec.twoLayers A cm x w1l w1r b1 w2l w2r b2
      = SageSpec.combine (SageSpec.meanBy (A (SageSpec.relu (SageSpec.combine (SageSpec.meanBy (A x) cm) x w1l w1r b1))) cm)
          (SageSpec.relu (SageSpec.combine (SageSpec.meanBy (A x) cm) x w1l w1r b1)) w2l w2r b2 := rfl

/-- What the second call leaves in the result array: the two layers of the arguments as launched. -/
theorem result_eq (c : Dev nD) :
    W4 m ρ c (Proc.devRef .tc main_v40)
      = SageSpec.twoLayers (agg (edges m c)) (cmax (edges m c)) (m ((c : Thread nD τ).loc main_arg0))
          (m ((c : Thread nD τ).loc main_arg2)) (m ((c : Thread nD τ).loc main_arg4)) (fun q => m ((c : Thread nD τ).loc main_arg3) (ix1 q))
          (m ((c : Thread nD τ).loc main_arg5)) (m ((c : Thread nD τ).loc main_arg7)) (fun q => m ((c : Thread nD τ).loc main_arg6) (ix1 q)) := by
  have hb : (fun q : Fin 64 => V3 m ρ c main_v39 (ix2 0 q)) = fun q => m ((c : Thread nD τ).loc main_arg6) (ix1 q) := by
    rw [entry1_bias]
    exact funext fun q => biasRow_apply _ q
  show W4 m ρ c (Proc.devRef .tc (Pipeline.arrRef spec1 5)) = _
  rw [W4_arr m ρ c 5, Region.final1 (V3 m ρ) c, hb, entry1_mean, entry1_self, (entry1_arg m ρ c).1, (entry1_arg m ρ c).2,
    scaled_eq_mean, first_call, twoLayers_def]
  rfl

end Cert.KernelIdeal.KValue

end
-- ==== Proof.RefValue.lean ====
import proofs.«172990_j6897717477582_1_alg».proof.Proof.Gen.ReferenceIdeal.Read
import proofs.«172990_j6897717477582_1_alg».proof.Proof.Spec

noncomputable section

namespace Cert.ReferenceIdeal.RefValue

open Cert.ReferenceIdeal Cert.ReferenceIdeal.Read Idealize.ShloMosaic Idealize.ShloMosaic.ValueIdx

/-- The edge list: row 0 the sources, row 1 the destinations. -/
abbrev Edges : Type := (⟨S2x1250000, .i32⟩ : BufTy).Contents (Elt Ideal)

/-- The aggregation along the edges: gather the rows of `v` at the edges' sources, add them into the rows of the
    edges' destinations, from zero. -/
def agg (e : Edges) (v : (⟨S100000x64, .f32⟩ : BufTy).Contents (Elt Ideal)) : (⟨S100000x64, .f32⟩ : BufTy).Contents (Elt Ideal) :=
  Host.scatterAdd (F := Ideal) (φ := .f32) scatter_S100000x64_S1250000x1_S1250000x64_1_0_0_1 (val_main_v11 (F := Ideal)) (val_main_v12 (F := Ideal) e)
    (Host.gather gather_S100000x64_S1250000x1_S1250000x64_1_0_n_n_0_1_164 v (val_main_v9 (F := Ideal) e) : (⟨S1250000x64, .f32⟩ : BufTy).Contents (Elt Ideal))

/-- Node `n`'s edge count, clipped below by one. -/
def cmax (e : Edges) : Fin 100000 → EReal := fun n => val_main_v19 (F := Ideal) e (ix1 n)

/-! ### The second layer's index, count and zero stages are the first layer's -/

theorem v37_eq (e : Edges) : val_main_v37 (F := Ideal) e = val_main_v9 (F := Ideal) e := rfl
theorem v39_eq : val_main_v39 (F := Ideal) = val_main_v11 (F := Ideal) := rfl
theorem v40_eq (e : Edges) : val_main_v40 (F := Ideal) e = val_main_v12 (F := Ideal) e := rfl
theorem v47_eq (e : Edges) : val_main_v47 (F := Ideal) e = val_main_v19 (F := Ideal) e := rfl

/-- The first layer's scattered sum is the aggregate of the input table. -/
theorem v13_eq (x0 : (⟨S100000x64, .f32⟩ : BufTy).Contents (Elt Ideal)) (e : Edges) :
    val_main_v13 (F := Ideal) x0 e = agg e x0 := rfl

/-- The second layer's scattered sum is the aggregate of the first layer's result. -/
theorem v41_eq (x0 : (⟨S100000x64, .f32⟩ : BufTy).Contents (Elt Ideal)) (e : Edges)
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v41 (F := Ideal) x0 e x2 x3 x4 = agg e (val_main_v31 (F := Ideal) x0 e x2 x3 x4) := by
  unfold val_main_v41 val_main_v38 agg
  rw [v37_eq, v39_eq, v40_eq]

/-! ### The composed index functions are the specification's constructors -/

theorem lidx24_eq (n : Fin 100000) (o k : Fin 64) : lidx_main_v24 (ix2 n o) k = SageSpec.nd n k :=
  funext fun a => Fin.ext (by match a with | ⟨0, _⟩ => rfl | ⟨1, _⟩ => rfl)
theorem ridx24_eq (n : Fin 100000) (o k : Fin 64) : idx_main_v23 (ridx_main_v24 (ix2 n o) k) = SageSpec.wt o k :=
  funext fun a => Fin.ext (by match a with | ⟨0, _⟩ => rfl | ⟨1, _⟩ => rfl)
theorem lidx29_eq (n : Fin 100000) (o k : Fin 64) : lidx_main_v29 (ix2 n o) k = SageSpec.nd n k :=
  funext fun a => Fin.ext (by match a with | ⟨0, _⟩ => rfl | ⟨1, _⟩ => rfl)
theorem ridx29_eq (n : Fin 100000) (o k : Fin 64) : idx_main_v28 (ridx_main_v29 (ix2 n o) k) = SageSpec.wt o k :=
  funext fun a => Fin.ext (by match a with | ⟨0, _⟩ => rfl | ⟨1, _⟩ => rfl)
theorem cnt21_eq (n : Fin 100000) (k : Fin 64) : idx_main_v20 (idx_main_v21 (SageSpec.nd n k)) = ix1 n :=
  funext fun a => Fin.ext (by match a with | ⟨0, _⟩ => rfl)
theorem bias26_eq (n : Fin 100000) (o : Fin 64) : idx_main_v25 (idx_main_v26 (ix2 n o)) = ix1 o :=
  funext fun a => Fin.ext (by match a with | ⟨0, _⟩ => rfl)

/-- One summand of the first layer's neighbour product: the mean's entry times the transposed weight's. -/
theorem term24 (x0 : (⟨S100000x64, .f32⟩ : BufTy).Contents (Elt Ideal)) (x1 : Edges)
    (x2 : (⟨S64x64, .f32⟩ : BufTy).Contents (Elt Ideal)) (n : Fin 100000) (o k : Fin 64) :
    val_main_v22 (F := Ideal) x0 x1 (lidx_main_v24 (ix2 n o) k) * val_main_v23 (F := Ideal) x2 (ridx_main_v24 (ix2 n o) k)
      = SageSpec.meanBy (agg x1 x0) (cmax x1) (SageSpec.nd n k) * x2 (SageSpec.wt o k) := by
  rw [val_main_v22_apply, val_main_v23_apply, val_main_v21_apply, val_main_v20_apply, lidx24_eq, ridx24_eq, cnt21_eq,
    Ideal.hostDivf_def, v13_eq]
  rfl

/-- One summand of the first layer's own-features product. -/
theorem term29 (x0 : (⟨S100000x64, .f32⟩ : BufTy).Contents (Elt Ideal))
    (x4 : (⟨S64x64, .f32⟩ : BufTy).Contents (Elt Ideal)) (n : Fin 100000) (o k : Fin 64) :
    x0 (lidx_main_v29 (ix2 n o) k) * val_main_v28 (F := Ideal) x4 (ridx_main_v29 (ix2 n o) k)
      = x0 (SageSpec.nd n k) * x4 (SageSpec.wt o k) := by
  rw [val_main_v28_apply, lidx29_eq, ridx29_eq]

/-- The first layer, as a function. -/
theorem layer1 (x0 : (⟨S100000x64, .f32⟩ : BufTy).Contents (Elt Ideal)) (x1 : Edges)
    (x2 : (⟨S64x64, .f32⟩ : BufTy).Contents (Elt Ideal)) (x3 : (⟨S64, .f32⟩ : BufTy).Contents (Elt Ideal))
    (x4 : (⟨S64x64, .f32⟩ : BufTy).Contents (Elt Ideal)) :
    val_main_v31 (F := Ideal) x0 x1 x2 x3 x4
      = SageSpec.relu (SageSpec.combine (SageSpec.meanBy (agg x1 x0) (cmax x1)) x0 x2 x4 (fun q => x3 (ix1 q))) := by
  rw [← SageSpec.combine_eq_biasMiddle]
  funext i
  obtain ⟨n, o, rfl⟩ : ∃ (n : Fin 100000) (o : Fin 64), i = ix2 n o := ⟨i 0, i 1, eq_ix2 i⟩
  rw [val_main_v31_apply, val_main_v30_apply, val_main_v27_apply, val_main_v24_apply, val_main_v29_apply,
    val_main_v26_apply, val_main_v25_apply, val_main_call0_v0_apply, val_main_call0_cst_apply,
    Finset.sum_congr rfl (fun k _ => term24 x0 x1 x2 n o k), Finset.sum_congr rfl (fun k _ => term29 x0 x4 n o k),
    bias26_eq, Ideal.maximumf_def, Ideal.addf_def, Ideal.addf_def, Ideal.ofBits_def, Ideal.ofBits_zero_f32]
  rfl

/-! ### The second layer, over the first layer's result -/

theorem lidx52_eq (n : Fin 100000) (o k : Fin 64) : lidx_main_v52 (ix2 n o) k = SageSpec.nd n k :=
  funext fun a => Fin.ext (by match a with | ⟨0, _⟩ => rfl | ⟨1, _⟩ => rfl)
theorem ridx52_eq (n : Fin 100000) (o k : Fin 64) : idx_main_v51 (ridx_main_v52 (ix2 n o) k) = SageSpec.wt o k :=
  funext fun a => Fin.ext (by match a with | ⟨0, _⟩ => rfl | ⟨1, _⟩ => rfl)
theorem lidx57_eq (n : Fin 100000) (o k : Fin 64) : lidx_main_v57 (ix2 n o) k = SageSpec.nd n k :=
  funext fun a => Fin.ext (by match a with | ⟨0, _⟩ => rfl | ⟨1, _⟩ => rfl)
theorem ridx57_eq (n : Fin 100000) (o k : Fin 64) : idx_main_v56 (ridx_main_v57 (ix2 n o) k) = SageSpec.wt o k :=
  funext fun a => Fin.ext (by match a with | ⟨0, _⟩ => rfl | ⟨1, _⟩ => rfl)
theorem cnt49_eq (n : Fin 100000) (k : Fin 64) : idx_main_v48 (idx_main_v49 (SageSpec.nd n k)) = ix1 n :=
  funext fun a => Fin.ext (by match a with | ⟨0, _⟩ => rfl)
theorem bias54_eq (n : Fin 100000) (o : Fin 64) : idx_main_v53 (idx_main_v54 (ix2 n o)) = ix1 o :=
  funext fun a => Fin.ext (by match a with | ⟨0, _⟩ => rfl)

/-- One summand of the second layer's neighbour product. -/
theorem term52 (x0 : (⟨S100000x64, .f32⟩ : BufTy).Contents (Elt Ideal)) (x1 : Edges)
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (n : Fin 100000) (o k : Fin 64) :
    val_main_v50 (F := Ideal) x0 x1 x2 x3 x4 (lidx_main_v52 (ix2 n o) k) * val_main_v51 (F := Ideal) x5 (ridx_main_v52 (ix2 n o) k)
      = SageSpec.meanBy (agg x1 (val_main_v31 (F := Ideal) x0 x1 x2 x3 x4)) (cmax x1) (SageSpec.nd n k) * x5 (SageSpec.wt o k) := by
  rw [val_main_v50_apply, val_main_v51_apply, val_main_v49_apply, val_main_v48_apply, lidx52_eq, ridx52_eq, cnt49_eq,
    Ideal.hostDivf_def, v41_eq, v47_eq]
  rfl

/-- One summand of the second layer's own-features product. -/
theorem term57 (h : (⟨S100000x64, .f32⟩ : BufTy).Contents (Elt Ideal))
    (x7 : (⟨S64x64, .f32⟩ : BufTy).Contents (Elt Ideal)) (n : Fin 100000) (o k : Fin 64) :
    h (lidx_main_v57 (ix2 n o) k) * val_main_v56 (F := Ideal) x7 (ridx_main_v57 (ix2 n o) k)
      = h (SageSpec.nd n k) * x7 (SageSpec.wt o k) := by
  rw [val_main_v56_apply, lidx57_eq, ridx57_eq]

/-- The reference's result is the two layers. -/
theorem ref_value (x0 : (⟨S100000x64, .f32⟩ : BufTy).Contents (Elt Ideal)) (x1 : Edges)
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) :
    val_main_v58 (F := Ideal) x0 x1 x2 x3 x4 x5 x6 x7
      = SageSpec.twoLayers (agg x1) (cmax x1) x0 x2 x4 (fun q => x3 (ix1 q)) x5 x7 (fun q => x6 (ix1 q)) := by
  unfold SageSpec.twoLayers
  rw [← layer1 x0 x1 x2 x3 x4, ← SageSpec.combine_eq_biasMiddle]
  funext i
  obtain ⟨n, o, rfl⟩ : ∃ (n : Fin 100000) (o : Fin 64), i = ix2 n o := ⟨i 0, i 1, eq_ix2 i⟩
  rw [val_main_v58_apply, val_main_v55_apply, val_main_v52_apply, val_main_v57_apply, val_main_v54_apply,
    val_main_v53_apply,
    Finset.sum_congr rfl (fun k _ => term52 x0 x1 x2 x3 x4 x5 n o k),
    Finset.sum_congr rfl (fun k _ => term57 (val_main_v31 (F := Ideal) x0 x1 x2 x3 x4) x7 n o k),
    bias54_eq, Ideal.addf_def, Ideal.addf_def]
  rfl

end Cert.ReferenceIdeal.RefValue

end
-- ==== Proof.Bridge.lean ====
import proofs.«172990_j6897717477582_1_alg».proof.Proof.RefValue
import proofs.«172990_j6897717477582_1_alg».proof.Proof.HostSide

noncomputable section

namespace Cert.Bridge

open Idealize.ShloMosaic Idealize.ShloMosaic.ValueIdx

/-- Both programs aggregate along the edges by the same two host operations on the same index columns. -/
theorem agg_eq (e : Cert.KernelIdeal.HostSide.Edges) : Cert.ReferenceIdeal.RefValue.agg e = Cert.KernelIdeal.HostSide.agg e := rfl

/-- Both programs count the edges into each node, and clip the count, the same way. -/
theorem cmax_eq (e : Cert.KernelIdeal.HostSide.Edges) : Cert.ReferenceIdeal.RefValue.cmax e = Cert.KernelIdeal.HostSide.cmax e := rfl

end Cert.Bridge

end
-- ==== Proof.lean ====
/-
  Two stacked mean-aggregating graph convolutions (100000 nodes, 64 features, 1250000 edges) with the positive part
  between them: the kernel program computes each layer's per-node combine
      out[n, o] = Σₖ mean[n, k] · W_l[o, k] + Σₖ x[n, k] · W_r[o, k] + b[o]
  in a tiled call over ten blocks of 10000 rows (the formats it narrows to on the way are the identity on the extended
  reals, its two matrix products into a zero accumulator are plain sums), and forms `mean` on the host as the
  edge-aggregate times the reciprocal of each node's clipped edge count; the reference divides the aggregate by the
  clipped count and adds the bias before the second product.

  The two agree on the extended reals for two reasons only. A clipped count is at least one, hence not zero, and off
  zero the quotient by `c` IS the product with `c⁻¹` while `1 / c` is `c⁻¹`: so `a · (1 / c) = a / c` at every
  extended real `a`, the infinities included, and nothing is asked of the inputs. And the three summands of a layer
  may be added in either order. The aggregation along the edges and the count are the same host operations in both
  programs and are carried as one function, never opened.

  The modules: Spec (the layers as functions, and the two laws), Payload (the call's body at an index), Region (each
  call's output array as the combine of the arrays it finds on entry), HostSide and Entry (what each call finds on
  entry, through the host operations before it), KernelRun (the kernel program's run with its result array named),
  KernelValue (the kernel's result is the two layers), RefValue (so is the reference's), Bridge (the two programs'
  aggregation and count are one).
-/
import proofs.«172990_j6897717477582_1_alg».proof.Defs
import proofs.«172990_j6897717477582_1_alg».proof.Proof.Gen.Kernel
import proofs.«172990_j6897717477582_1_alg».proof.Proof.Gen.Kernel.Skeleton
import proofs.«172990_j6897717477582_1_alg».proof.Proof.Gen.Kernel.Launch
import proofs.«172990_j6897717477582_1_alg».proof.Proof.Gen.Kernel.Points
import proofs.«172990_j6897717477582_1_alg».proof.Proof.Gen.Kernel.Frame
import proofs.«172990_j6897717477582_1_alg».proof.Proof.Gen.KernelIdeal
import proofs.«172990_j6897717477582_1_alg».proof.Proof.Gen.KernelIdeal.Skeleton
import proofs.«172990_j6897717477582_1_alg».proof.Proof.Gen.KernelIdeal.Launch
import proofs.«172990_j6897717477582_1_alg».proof.Proof.Gen.KernelIdeal.Points
import proofs.«172990_j6897717477582_1_alg».proof.Proof.Gen.KernelIdeal.Frame
import proofs.«172990_j6897717477582_1_alg».proof.Proof.Gen.ReferenceIdeal
import proofs.«172990_j6897717477582_1_alg».proof.Proof.Gen.Pre_finite_inputs
import proofs.«172990_j6897717477582_1_alg».proof.Proof.Gen.ReferenceIdeal.Run
import proofs.«172990_j6897717477582_1_alg».proof.Proof.Gen.ReferenceIdeal.Read
import proofs.«172990_j6897717477582_1_alg».proof.Proof.KernelRun
import proofs.«172990_j6897717477582_1_alg».proof.Proof.KernelValue
import proofs.«172990_j6897717477582_1_alg».proof.Proof.RefValue
import proofs.«172990_j6897717477582_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the two layers of their arguments in the result array; the arguments agree. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.KValue.result_eq m ρ c), (h c).2⟩)
      (Cert.KernelIdeal.GenRun.run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.ref_value, Cert.Bridge.agg_eq, Cert.Bridge.cmax_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
